-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S4096 32) (main_arg6 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S20000x1 : Shape := ⟨2, ![20000, 1]⟩
abbrev S20000x64 : Shape := ⟨2, ![20000, 64]⟩
abbrev S5000x64 : Shape := ⟨2, ![5000, 64]⟩
abbrev S4096x1 : Shape := ⟨2, ![4096, 1]⟩
abbrev S4096x64 : Shape := ⟨2, ![4096, 64]⟩
abbrev S1024x64 : Shape := ⟨2, ![1024, 64]⟩
abbrev S1024 : Shape := ⟨1, ![1024]⟩

abbrev nBuf : Space → Nat
  | .hbm => 73
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000x64, .f32⟩
  | .hbm, ⟨32, _⟩ => ⟨S4000000x64, .f32⟩
  | .hbm, ⟨33, _⟩ => ⟨S_, .f32⟩
  | .hbm, ⟨34, _⟩ => ⟨S150000x64, .f32⟩
  | .hbm, ⟨35, _⟩ => ⟨S4000000x1, .i32⟩
  | .hbm, ⟨36, _⟩ => ⟨S150000x64, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x64, .f32⟩
  | .hbm, ⟨46, _⟩ => ⟨S4000000x64, .f32⟩
  | .hbm, ⟨47, _⟩ => ⟨S_, .f32⟩
  | .hbm, ⟨48, _⟩ => ⟨S150000x64, .f32⟩
  | .hbm, ⟨49, _⟩ => ⟨S4000000x1, .i32⟩
  | .hbm, ⟨50, _⟩ => ⟨S150000x64, .f32⟩
  | .hbm, ⟨51, _⟩ => ⟨S150000x64, .f32⟩
  | .hbm, ⟨52, _⟩ => ⟨S100000x64, .f32⟩
  | .hbm, ⟨53, _⟩ => ⟨S50000x64, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x64, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x64, .f32⟩
  | .hbm, ⟨72, _⟩ => ⟨S4096, .f32⟩
  | .local _ .vmem, ⟨0, _⟩ => ⟨S20000x1, .f32⟩
  | .local _ .vmem, ⟨1, _⟩ => ⟨S20000x1, .f32⟩
  | .local _ .vmem, ⟨2, _⟩ => ⟨S20000x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x1, .f32⟩
  | .local _ .vmem, ⟨7, _⟩ => ⟨S20000x1, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x1, .f32⟩
  | .local _ .vmem, ⟨13, _⟩ => ⟨S20000x1, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024, .f32⟩
  | .local _ .vmem, ⟨33, _⟩ => ⟨S1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S20000x1_S20000x64 : S20000x1.Broadcasts S20000x64
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  inb_S1024_S1024_0 : ∀ a, (![0] : Fin 1 → Nat) a + S1024.size a ≤ S1024.size a
  h_S1024 : 0 < S1024.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S4000000x1.size a
  hwx0_0 : ∀ i : grid0.Coords, EltTy.bits .f32 = 32 ∨ (Rect.block (s := S4000000x1) S20000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S4000000x64.size a
  hwx0_1 : ∀ i : grid0.Coords, EltTy.bits .f32 = 32 ∨ (Rect.block (s := S4000000x64) S20000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S4000000x64.size a
  hwx0_2 : ∀ i : grid0.Coords, EltTy.bits .f32 = 32 ∨ (Rect.block (s := S4000000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x1.size a ≤ S4000000x1.size a
  hwx1_0 : ∀ i : grid1.Coords, EltTy.bits .f32 = 32 ∨ (Rect.block (s := S4000000x1) S20000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S4000000x64.size a
  hwx1_1 : ∀ i : grid1.Coords, EltTy.bits .f32 = 32 ∨ (Rect.block (s := S4000000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S4000000x64.size a
  hwx1_2 : ∀ i : grid1.Coords, EltTy.bits .f32 = 32 ∨ (Rect.block (s := S4000000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x1.size a ≤ S4000000x1.size a
  hwx2_0 : ∀ i : grid2.Coords, EltTy.bits .f32 = 32 ∨ (Rect.block (s := S4000000x1) S20000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S4000000x64.size a
  hwx2_1 : ∀ i : grid2.Coords, EltTy.bits .f32 = 32 ∨ (Rect.block (s := S4000000x64) S20000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S4000000x64.size a
  hwx2_2 : ∀ i : grid2.Coords, EltTy.bits .f32 = 32 ∨ (Rect.block (s := S4000000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S4096x64.size a
  hwx4_0 : ∀ i : grid4.Coords, EltTy.bits .f32 = 32 ∨ (Rect.block (s := S4096x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S4096x64.size a
  hwx4_1 : ∀ i : grid4.Coords, EltTy.bits .f32 = 32 ∨ (Rect.block (s := S4096x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v1) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S20000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S20000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S150000x64, .f32⟩
  | .hbm, ⟨25, _⟩ => ⟨S4000000x1, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000x64, .f32⟩
  | .hbm, ⟨35, _⟩ => ⟨S4000000x64, .f32⟩
  | .hbm, ⟨36, _⟩ => ⟨S4000000x64, .f32⟩
  | .hbm, ⟨37, _⟩ => ⟨S_, .f32⟩
  | .hbm, ⟨38, _⟩ => ⟨S150000x64, .f32⟩
  | .hbm, ⟨39, _⟩ => ⟨S4000000x1, .i32⟩
  | .hbm, ⟨40, _⟩ => ⟨S150000x64, .f32⟩
  | .hbm, ⟨41, _⟩ => ⟨S150000x64, .f32⟩
  | .hbm, ⟨42, _⟩ => ⟨S4000000x1, .f32⟩
  | .hbm, ⟨43, _⟩ => ⟨S_, .i32⟩
  | .hbm, ⟨44, _⟩ => ⟨S4000000, .i32⟩
  | .hbm, ⟨45, _⟩ => ⟨S4000000, .i1⟩
  | .hbm, ⟨46, _⟩ => ⟨S_, .i32⟩
  | .hbm, ⟨47, _⟩ => ⟨S4000000, .i32⟩
  | .hbm, ⟨48, _⟩ => ⟨S4000000, .i32⟩
  | .hbm, ⟨49, _⟩ => ⟨S4000000, .i32⟩
  | .hbm, ⟨50, _⟩ => ⟨S4000000x1, .i32⟩
  | .hbm, ⟨51, _⟩ => ⟨S4000000x64, .f32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S150000x64, .f32⟩
  | .hbm, ⟨56, _⟩ => ⟨S4000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x64, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x64, .f32⟩
  | .hbm, ⟨82, _⟩ => ⟨S4096x64, .f32⟩
  | .hbm, ⟨83, _⟩ => ⟨S_, .f32⟩
  | .hbm, ⟨84, _⟩ => ⟨S4096, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.Spec.lean ====
/-
  The three array functions the Pallas bodies compute, stated once over literal shapes, index by index.

  * `scaleRows w g`: row `e` of the gathered messages `g` ([4000000, 64]) multiplied by the edge weight `w e`
    (a [4000000, 1] column): entry `(e, d)` is `w (e, 0) · g (e, d)`.
  * `quarterSum l0 l1 l2 l3`: the four layer tables ([150000, 64]) added left to right and multiplied by the
    float `0.25` (the word `0x3E800000`): entry `i` is `(((l0 i + l1 i) + l2 i) + l3 i) · 0.25`.
  * `rowDots u v`: for each of the 4096 batch rows the sum over the 64 columns of `u (p, k) · v (p, k)`
    (stated over the extended reals, where a lane sum is a finite sum).
-/
import Idealize.ShloMosaic.PureOps.Ideal

noncomputable section

namespace Cert.Spec

open Idealize.ShloMosaic

variable {F : FTy → Type} [FloatOps F]

abbrev EdgeCol : Shape := ⟨2, ![4000000, 1]⟩
abbrev EdgeRows : Shape := ⟨2, ![4000000, 64]⟩
abbrev NodeRows : Shape := ⟨2, ![150000, 64]⟩
abbrev BatchRows : Shape := ⟨2, ![4096, 64]⟩
abbrev Batch : Shape := ⟨1, ![4096]⟩

/-- The weight column's entry that belongs to the row of `i`. -/
abbrev weightOf (i : EdgeRows.Idx) : EdgeCol.Idx := fun a => match a with
  | ⟨0, _⟩ => ⟨(i 0).val, (i 0).isLt⟩
  | ⟨1, _⟩ => ⟨0, Nat.one_pos⟩

/-- Every row of `g` multiplied by its edge weight. -/
def scaleRows (w : EdgeCol.Idx → Elt F .f32) (g : EdgeRows.Idx → Elt F .f32) : EdgeRows.Idx → Elt F .f32 :=
  fun i => FloatOps.mulf (w (weightOf i)) (g i)

/-- The four tables added left to right, times the float 0.25. -/
def quarterSum (l0 l1 l2 l3 : NodeRows.Idx → Elt F .f32) : NodeRows.Idx → Elt F .f32 :=
  fun i => FloatOps.mulf (FloatOps.addf (FloatOps.addf (FloatOps.addf (l0 i) (l1 i)) (l2 i)) (l3 i))
    (FloatOps.ofBits .f32 0x3E800000#32)

/-- Entry `(p, k)` of a [4096, 64] table. -/
abbrev entryOf (p : Batch.Idx) (k : Fin 64) : BatchRows.Idx := fun a => match a with
  | ⟨0, _⟩ => ⟨(p 0).val, (p 0).isLt⟩
  | ⟨1, _⟩ => ⟨k.val, k.isLt⟩

/-- Row by row, the sum over the columns of the products. -/
def rowDots (u v : BatchRows.Idx → EReal) : Batch.Idx → EReal :=
  fun p => ∑ k : Fin 64, u (entryOf p k) * v (entryOf p k)

end Cert.Spec

end
-- ==== Proof.ScaleValue0.lean ====
/-
  A scale call (`msgs[e, :] = vals[e] * gathered[e, :]`): its result table is `Cert.Spec.scaleRows` of the weight column
  and of the gathered table it is called on.

  The grid has 200 points; at point `t` the weight window's block is rows `20000 t … 20000 t + 19999` of the
  [4000000, 1] column and the other two windows' blocks are the same rows of their [4000000, 64] tables. The body
  broadcasts the loaded column along the 64 lanes and multiplies, so entry `(r, d)` of what point `t` writes back is
  `w (20000 t + r, 0) · g (20000 t + r, d)`: rows `20000 t …` of `scaleRows w g`. The 200 blocks tile the rows.
-/
import proofs.«134864_j73821897883700_1_alg».proof.Proof.FrameKernelIdeal
import proofs.«134864_j73821897883700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Scale0

open Cert.KernelIdeal Cert.KernelIdeal.Gen Cert.KernelIdeal.GenP

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored block: the loaded column broadcast along the lanes, times the loaded rows (the shape casts are
    identities). -/
theorem payload_eq (x0 : Vec F S20000x1 .f32) (x1 : Vec F S20000x64 .f32) :
    k0_pay1 x0 x1 = mulf (broadcastTo S20000x64 x0 broadcasts_S20000x1_S20000x64) x1 := by
  unfold k0_pay1
  simp only [shapeCast_self]

/-- The column entry in the row of `j`, inside a block. -/
abbrev colOf (j : S20000x64.Idx) : S20000x1.Idx := fun a => match a with
  | ⟨0, _⟩ => ⟨(j 0).val, (j 0).isLt⟩
  | ⟨1, _⟩ => ⟨0, Nat.one_pos⟩

/-- The broadcast column read at `j` is the column's entry in `j`'s row. -/
theorem broadcast_col (x0 : Vec F S20000x1 .f32) (j : S20000x64.Idx) :
    broadcastTo S20000x64 x0 broadcasts_S20000x1_S20000x64 j = x0 (colOf j) :=
  broadcastTo_apply x0 broadcasts_S20000x1_S20000x64 j (colOf j) (fun a => match a with
    | ⟨0, _⟩ => by show (j 0).val = if (20000 : Nat) = 1 then 0 else (j 0).val; rw [if_neg (by decide)]
    | ⟨1, _⟩ => by show 0 = if (1 : Nat) = 1 then 0 else (j 1).val; rw [if_pos rfl])

/-- All three windows step through the rows together: block index `(t, 0)` at point `t`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaleRows` of the operand tables as the call finds them. -/
theorem flushed_eq (c : Dev nD) (t : Fin cfg0.N) :
    (dat0 V c).flushed 2 t = ((cfg0.win 2).blk t).view.read (Elt F)
      (Cert.Spec.scaleRows (V c main_v1) (V c main_v8)) := by
  show (cfg0.win 2).cut (grid0.coords t) ((dat0 V c).after 2 t) = _
  rw [after0_2]
  unfold out0_2
  rw [View.canon_unit_zero zero_offsets]
  simp only [View.ld_unit_zero (S := S20000x1) zero_offsets, View.ld_unit_zero (S := S20000x64) zero_offsets]
  rw [payload_eq]
  obtain ⟨a0, a1, b0, b1, e0, e1⟩ := index_facts t
  funext j
  show FloatOps.mulf (broadcastTo S20000x64 (iblk0 V c 0 t) broadcasts_S20000x1_S20000x64 j) (V c main_v8 (((cfg0.win 1).blk t).view.emb j))
    = FloatOps.mulf (V c main_v1 (Cert.Spec.weightOf (((cfg0.win 2).blk t).view.emb j))) (V c main_v8 (((cfg0.win 2).blk t).view.emb j))
  rw [broadcast_col]
  show FloatOps.mulf (V c main_v1 (((cfg0.win 0).blk t).view.emb (colOf j))) (V c main_v8 (((cfg0.win 1).blk t).view.emb j))
    = FloatOps.mulf (V c main_v1 (Cert.Spec.weightOf (((cfg0.win 2).blk t).view.emb j))) (V c main_v8 (((cfg0.win 2).blk t).view.emb j))
  have h0 : ((cfg0.win 0).blk t).view.emb (colOf j) = Cert.Spec.weightOf (((cfg0.win 2).blk t).view.emb j) := by
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 1 + 1 * 0 = 0; omega
  have h1 : ((cfg0.win 1).blk t).view.emb j = ((cfg0.win 2).blk t).view.emb j := by
    funext a; apply Fin.ext
    match a with
    | ⟨0, _⟩ => show win0_1.index t (0 : Fin 2) * 20000 + 1 * (j 0).val = win0_2.index t (0 : Fin 2) * 20000 + 1 * (j 0).val; omega
    | ⟨1, _⟩ => show win0_1.index t (1 : Fin 2) * 64 + 1 * (j 1).val = win0_2.index t (1 : Fin 2) * 64 + 1 * (j 1).val; omega
  rw [h0, h1]

/-- Entry `i` of the result table lies in point `t`'s block iff its row is among that block's 20000 rows. -/
theorem mem_block (t : Fin cfg0.N) (i : S4000000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v9).slice (win0_2.rect t)).set ↔ _
  rw [View.set_slice_whole, Rect.mem_set_unit]
  exact Iff.rfl

/-- The 200 blocks tile the table: row `r` is in the block of point `r / 20000`. -/
theorem covered (i : S4000000x64.Idx) : ∃ t : Fin cfg0.N, (cfg0.win 2).flush t = true ∧ i ∈ ((cfg0.win 2).blk t).view.set := by
  have hi0 : (i 0).val < 4000000 := (i 0).isLt
  have hi1 : (i 1).val < 64 := (i 1).isLt
  have hN : cfg0.N = 200 := rfl
  let t : Fin cfg0.N := ⟨(i 0).val / 20000, by rw [hN]; omega⟩
  obtain ⟨_, _, _, _, e0, e1⟩ := index_facts t
  have ht : t.val = (i 0).val / 20000 := rfl
  refine ⟨t, flush0_2 t, ?_⟩
  rw [mem_block]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- THE RESULT TABLE after the call: `scaleRows` of the weight column and the gathered table as the call finds them. -/
theorem final (c : Dev nD) : (dat0 V c).arrAt 2 cfg0.N = Cert.Spec.scaleRows (V c main_v1) (V c main_v8) :=
  (dat0 V c).arrAt_eq_of_cover 2 _ (fun t _ => flushed_eq V c t) covered

end Cert.KernelIdeal.Scale0

end
-- ==== Proof.ScaleValue1.lean ====
/-
  A scale call (`msgs[e, :] = vals[e] * gathered[e, :]`): its result table is `Cert.Spec.scaleRows` of the weight column
  and of the gathered table it is called on.

  The grid has 200 points; at point `t` the weight window's block is rows `20000 t … 20000 t + 19999` of the
  [4000000, 1] column and the other two windows' blocks are the same rows of their [4000000, 64] tables. The body
  broadcasts the loaded column along the 64 lanes and multiplies, so entry `(r, d)` of what point `t` writes back is
  `w (20000 t + r, 0) · g (20000 t + r, d)`: rows `20000 t …` of `scaleRows w g`. The 200 blocks tile the rows.
-/
import proofs.«134864_j73821897883700_1_alg».proof.Proof.FrameKernelIdeal
import proofs.«134864_j73821897883700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Scale1

open Cert.KernelIdeal Cert.KernelIdeal.Gen Cert.KernelIdeal.GenP

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored block: the loaded column broadcast along the lanes, times the loaded rows (the shape casts are
    identities). -/
theorem payload_eq (x0 : Vec F S20000x1 .f32) (x1 : Vec F S20000x64 .f32) :
    k1_pay1 x0 x1 = mulf (broadcastTo S20000x64 x0 broadcasts_S20000x1_S20000x64) x1 := by
  unfold k1_pay1
  simp only [shapeCast_self]

/-- The column entry in the row of `j`, inside a block. -/
abbrev colOf (j : S20000x64.Idx) : S20000x1.Idx := fun a => match a with
  | ⟨0, _⟩ => ⟨(j 0).val, (j 0).isLt⟩
  | ⟨1, _⟩ => ⟨0, Nat.one_pos⟩

/-- The broadcast column read at `j` is the column's entry in `j`'s row. -/
theorem broadcast_col (x0 : Vec F S20000x1 .f32) (j : S20000x64.Idx) :
    broadcastTo S20000x64 x0 broadcasts_S20000x1_S20000x64 j = x0 (colOf j) :=
  broadcastTo_apply x0 broadcasts_S20000x1_S20000x64 j (colOf j) (fun a => match a with
    | ⟨0, _⟩ => by show (j 0).val = if (20000 : Nat) = 1 then 0 else (j 0).val; rw [if_neg (by decide)]
    | ⟨1, _⟩ => by show 0 = if (1 : Nat) = 1 then 0 else (j 1).val; rw [if_pos rfl])

/-- All three windows step through the rows together: block index `(t, 0)` at point `t`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleRows` of the operand tables as the call finds them. -/
theorem flushed_eq (c : Dev nD) (t : Fin cfg1.N) :
    (dat1 V c).flushed 2 t = ((cfg1.win 2).blk t).view.read (Elt F)
      (Cert.Spec.scaleRows (V c main_v1) (V c main_v19)) := by
  show (cfg1.win 2).cut (grid1.coords t) ((dat1 V c).after 2 t) = _
  rw [after1_2]
  unfold out1_2
  rw [View.canon_unit_zero zero_offsets]
  simp only [View.ld_unit_zero (S := S20000x1) zero_offsets, View.ld_unit_zero (S := S20000x64) zero_offsets]
  rw [payload_eq]
  obtain ⟨a0, a1, b0, b1, e0, e1⟩ := index_facts t
  funext j
  show FloatOps.mulf (broadcastTo S20000x64 (iblk1 V c 0 t) broadcasts_S20000x1_S20000x64 j) (V c main_v19 (((cfg1.win 1).blk t).view.emb j))
    = FloatOps.mulf (V c main_v1 (Cert.Spec.weightOf (((cfg1.win 2).blk t).view.emb j))) (V c main_v19 (((cfg1.win 2).blk t).view.emb j))
  rw [broadcast_col]
  show FloatOps.mulf (V c main_v1 (((cfg1.win 0).blk t).view.emb (colOf j))) (V c main_v19 (((cfg1.win 1).blk t).view.emb j))
    = FloatOps.mulf (V c main_v1 (Cert.Spec.weightOf (((cfg1.win 2).blk t).view.emb j))) (V c main_v19 (((cfg1.win 2).blk t).view.emb j))
  have h0 : ((cfg1.win 0).blk t).view.emb (colOf j) = Cert.Spec.weightOf (((cfg1.win 2).blk t).view.emb j) := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 64 + 1 * (j 1).val = win1_2.index t (1 : Fin 2) * 64 + 1 * (j 1).val; omega
  rw [h0, h1]

/-- Entry `i` of the result table lies in point `t`'s block iff its row is among that block's 20000 rows. -/
theorem mem_block (t : Fin cfg1.N) (i : S4000000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v20).slice (win1_2.rect t)).set ↔ _
  rw [View.set_slice_whole, Rect.mem_set_unit]
  exact Iff.rfl

/-- The 200 blocks tile the table: row `r` is in the block of point `r / 20000`. -/
theorem covered (i : S4000000x64.Idx) : ∃ t : Fin cfg1.N, (cfg1.win 2).flush t = true ∧ i ∈ ((cfg1.win 2).blk t).view.set := by
  have hi0 : (i 0).val < 4000000 := (i 0).isLt
  have hi1 : (i 1).val < 64 := (i 1).isLt
  have hN : cfg1.N = 200 := rfl
  let t : Fin cfg1.N := ⟨(i 0).val / 20000, by rw [hN]; omega⟩
  obtain ⟨_, _, _, _, e0, e1⟩ := index_facts t
  have ht : t.val = (i 0).val / 20000 := rfl
  refine ⟨t, flush1_2 t, ?_⟩
  rw [mem_block]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- THE RESULT TABLE after the call: `scaleRows` of the weight column and the gathered table as the call finds them. -/
theorem final (c : Dev nD) : (dat1 V c).arrAt 2 cfg1.N = Cert.Spec.scaleRows (V c main_v1) (V c main_v19) :=
  (dat1 V c).arrAt_eq_of_cover 2 _ (fun t _ => flushed_eq V c t) covered

end Cert.KernelIdeal.Scale1

end
-- ==== Proof.ScaleValue2.lean ====
/-
  A scale call (`msgs[e, :] = vals[e] * gathered[e, :]`): its result table is `Cert.Spec.scaleRows` of the weight column
  and of the gathered table it is called on.

  The grid has 200 points; at point `t` the weight window's block is rows `20000 t … 20000 t + 19999` of the
  [4000000, 1] column and the other two windows' blocks are the same rows of their [4000000, 64] tables. The body
  broadcasts the loaded column along the 64 lanes and multiplies, so entry `(r, d)` of what point `t` writes back is
  `w (20000 t + r, 0) · g (20000 t + r, d)`: rows `20000 t …` of `scaleRows w g`. The 200 blocks tile the rows.
-/
import proofs.«134864_j73821897883700_1_alg».proof.Proof.FrameKernelIdeal
import proofs.«134864_j73821897883700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Scale2

open Cert.KernelIdeal Cert.KernelIdeal.Gen Cert.KernelIdeal.GenP

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored block: the loaded column broadcast along the lanes, times the loaded rows (the shape casts are
    identities). -/
theorem payload_eq (x0 : Vec F S20000x1 .f32) (x1 : Vec F S20000x64 .f32) :
    k2_pay1 x0 x1 = mulf (broadcastTo S20000x64 x0 broadcasts_S20000x1_S20000x64) x1 := by
  unfold k2_pay1
  simp only [shapeCast_self]

/-- The column entry in the row of `j`, inside a block. -/
abbrev colOf (j : S20000x64.Idx) : S20000x1.Idx := fun a => match a with
  | ⟨0, _⟩ => ⟨(j 0).val, (j 0).isLt⟩
  | ⟨1, _⟩ => ⟨0, Nat.one_pos⟩

/-- The broadcast column read at `j` is the column's entry in `j`'s row. -/
theorem broadcast_col (x0 : Vec F S20000x1 .f32) (j : S20000x64.Idx) :
    broadcastTo S20000x64 x0 broadcasts_S20000x1_S20000x64 j = x0 (colOf j) :=
  broadcastTo_apply x0 broadcasts_S20000x1_S20000x64 j (colOf j) (fun a => match a with
    | ⟨0, _⟩ => by show (j 0).val = if (20000 : Nat) = 1 then 0 else (j 0).val; rw [if_neg (by decide)]
    | ⟨1, _⟩ => by show 0 = if (1 : Nat) = 1 then 0 else (j 1).val; rw [if_pos rfl])

/-- All three windows step through the rows together: block index `(t, 0)` at point `t`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `scaleRows` of the operand tables as the call finds them. -/
theorem flushed_eq (c : Dev nD) (t : Fin cfg2.N) :
    (dat2 V c).flushed 2 t = ((cfg2.win 2).blk t).view.read (Elt F)
      (Cert.Spec.scaleRows (V c main_v1) (V c main_v30)) := by
  show (cfg2.win 2).cut (grid2.coords t) ((dat2 V c).after 2 t) = _
  rw [after2_2]
  unfold out2_2
  rw [View.canon_unit_zero zero_offsets]
  simp only [View.ld_unit_zero (S := S20000x1) zero_offsets, View.ld_unit_zero (S := S20000x64) zero_offsets]
  rw [payload_eq]
  obtain ⟨a0, a1, b0, b1, e0, e1⟩ := index_facts t
  funext j
  show FloatOps.mulf (broadcastTo S20000x64 (iblk2 V c 0 t) broadcasts_S20000x1_S20000x64 j) (V c main_v30 (((cfg2.win 1).blk t).view.emb j))
    = FloatOps.mulf (V c main_v1 (Cert.Spec.weightOf (((cfg2.win 2).blk t).view.emb j))) (V c main_v30 (((cfg2.win 2).blk t).view.emb j))
  rw [broadcast_col]
  show FloatOps.mulf (V c main_v1 (((cfg2.win 0).blk t).view.emb (colOf j))) (V c main_v30 (((cfg2.win 1).blk t).view.emb j))
    = FloatOps.mulf (V c main_v1 (Cert.Spec.weightOf (((cfg2.win 2).blk t).view.emb j))) (V c main_v30 (((cfg2.win 2).blk t).view.emb j))
  have h0 : ((cfg2.win 0).blk t).view.emb (colOf j) = Cert.Spec.weightOf (((cfg2.win 2).blk t).view.emb j) := by
    funext a; apply Fin.ext
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 1 + 1 * 0 = 0; omega
  have h1 : ((cfg2.win 1).blk t).view.emb j = ((cfg2.win 2).blk t).view.emb j := by
    funext a; apply Fin.ext
    match a with
    | ⟨0, _⟩ => show win2_1.index t (0 : Fin 2) * 20000 + 1 * (j 0).val = win2_2.index t (0 : Fin 2) * 20000 + 1 * (j 0).val; omega
    | ⟨1, _⟩ => show win2_1.index t (1 : Fin 2) * 64 + 1 * (j 1).val = win2_2.index t (1 : Fin 2) * 64 + 1 * (j 1).val; omega
  rw [h0, h1]

/-- Entry `i` of the result table lies in point `t`'s block iff its row is among that block's 20000 rows. -/
theorem mem_block (t : Fin cfg2.N) (i : S4000000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v31).slice (win2_2.rect t)).set ↔ _
  rw [View.set_slice_whole, Rect.mem_set_unit]
  exact Iff.rfl

/-- The 200 blocks tile the table: row `r` is in the block of point `r / 20000`. -/
theorem covered (i : S4000000x64.Idx) : ∃ t : Fin cfg2.N, (cfg2.win 2).flush t = true ∧ i ∈ ((cfg2.win 2).blk t).view.set := by
  have hi0 : (i 0).val < 4000000 := (i 0).isLt
  have hi1 : (i 1).val < 64 := (i 1).isLt
  have hN : cfg2.N = 200 := rfl
  let t : Fin cfg2.N := ⟨(i 0).val / 20000, by rw [hN]; omega⟩
  obtain ⟨_, _, _, _, e0, e1⟩ := index_facts t
  have ht : t.val = (i 0).val / 20000 := rfl
  refine ⟨t, flush2_2 t, ?_⟩
  rw [mem_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 64 ≤ (i 1).val ∧ (i 1).val < win2_2.index t (1 : Fin 2) * 64 + 64; omega

/-- THE RESULT TABLE after the call: `scaleRows` of the weight column and the gathered table as the call finds them. -/
theorem final (c : Dev nD) : (dat2 V c).arrAt 2 cfg2.N = Cert.Spec.scaleRows (V c main_v1) (V c main_v30) :=
  (dat2 V c).arrAt_eq_of_cover 2 _ (fun t _ => flushed_eq V c t) covered

end Cert.KernelIdeal.Scale2

end
-- ==== Proof.PoolValue.lean ====
/-
  The mean-pool call (the fourth pallas_call): its result table is `Cert.Spec.quarterSum` of its four operand tables.

  The grid has 30 points; at point `t` every window's block is rows `5000 t … 5000 t + 4999` of its table (all 64
  columns), and the body stores `(((x0 + x1) + x2) + x3) · 0.25` of the four loaded blocks. So what point `t` writes
  back is rows `5000 t …` of `quarterSum` of the whole tables, and the 30 blocks tile the 150000 rows.
-/
import proofs.«134864_j73821897883700_1_alg».proof.Proof.FrameKernelIdeal
import proofs.«134864_j73821897883700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.KernelIdeal.GenP

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored block as pointwise operations of the loaded blocks (the shape casts are identities). -/
theorem payload_eq (x0 x1 x2 x3 : Vec F S5000x64 .f32) :
    k3_pay1 x0 x1 x2 x3 = mulf (addf (addf (addf x0 x1) x2) x3) (broadcast S5000x64 (Scalar.ofBits .f32 0x3E800000#32)) := by
  unfold k3_pay1
  simp only [shapeCast_self]

/-- All five windows step through the rows together: block index `(t, 0)` at point `t`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back is block `t` of `quarterSum` of the operand tables as the call finds them. -/
theorem flushed_eq (c : Dev nD) (t : Fin cfg3.N) :
    (dat3 V c).flushed 4 t = ((cfg3.win 4).blk t).view.read (Elt F)
      (Cert.Spec.quarterSum (V c main_v0) (V c main_v12) (V c main_v23) (V c main_v34)) := by
  show (cfg3.win 4).cut (grid3.coords t) ((dat3 V c).after 4 t) = _
  rw [after3_4]
  unfold out3_4
  rw [View.canon_unit_zero zero_offsets]
  simp only [View.ld_unit_zero (S := S5000x64) zero_offsets]
  rw [payload_eq]
  obtain ⟨a0, a1, b0, b1, c0, c1, d0, d1, e0, e1⟩ := index_facts t
  funext j
  show FloatOps.mulf (FloatOps.addf (FloatOps.addf (FloatOps.addf (V c main_v0 (((cfg3.win 0).blk t).view.emb j)) (V c main_v12 (((cfg3.win 1).blk t).view.emb j))) (V c main_v23 (((cfg3.win 2).blk t).view.emb j))) (V c main_v34 (((cfg3.win 3).blk t).view.emb j))) (FloatOps.ofBits .f32 0x3E800000#32)
    = FloatOps.mulf (FloatOps.addf (FloatOps.addf (FloatOps.addf (V c main_v0 (((cfg3.win 4).blk t).view.emb j)) (V c main_v12 (((cfg3.win 4).blk t).view.emb j))) (V c main_v23 (((cfg3.win 4).blk t).view.emb j))) (V c main_v34 (((cfg3.win 4).blk t).view.emb j))) (FloatOps.ofBits .f32 0x3E800000#32)
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 64 + 1 * (j 1).val = win3_4.index t (1 : Fin 2) * 64 + 1 * (j 1).val; omega
  have h3 : ((cfg3.win 3).blk t).view.emb j = ((cfg3.win 4).blk t).view.emb j := by
    funext a; apply Fin.ext
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 64 + 1 * (j 1).val = win3_4.index t (1 : Fin 2) * 64 + 1 * (j 1).val; omega
  rw [h0, h1, h2, h3]

/-- Entry `i` of the result table lies in point `t`'s block iff its row is among that block's 5000 rows. -/
theorem mem_block (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v35).slice (win3_4.rect t)).set ↔ _
  rw [View.set_slice_whole, Rect.mem_set_unit]
  exact Iff.rfl

/-- The 30 blocks tile the table: row `r` is in the block of point `r / 5000`. -/
theorem covered (i : S150000x64.Idx) : ∃ t : Fin cfg3.N, (cfg3.win 4).flush t = true ∧ i ∈ ((cfg3.win 4).blk t).view.set := by
  have hi0 : (i 0).val < 150000 := (i 0).isLt
  have hi1 : (i 1).val < 64 := (i 1).isLt
  have hN : cfg3.N = 30 := rfl
  let t : Fin cfg3.N := ⟨(i 0).val / 5000, by rw [hN]; omega⟩
  obtain ⟨_, _, _, _, _, _, _, _, e0, e1⟩ := index_facts t
  have ht : t.val = (i 0).val / 5000 := rfl
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- THE RESULT TABLE after the call: `quarterSum` of the four operand tables as the call finds them. -/
theorem final (c : Dev nD) : (dat3 V c).arrAt 4 cfg3.N
    = Cert.Spec.quarterSum (V c main_v0) (V c main_v12) (V c main_v23) (V c main_v34) :=
  (dat3 V c).arrAt_eq_of_cover 4 _ (fun t _ => flushed_eq V c t) covered

end Cert.KernelIdeal.Pool

end
-- ==== Proof.DotValue.lean ====
/-
  The batched-dot call (the fifth pallas_call), read over the extended reals: its result vector is `Cert.Spec.rowDots`
  of the two gathered [4096, 64] tables it is called on.

  The grid has 4 points; at point `t` the two operand windows' blocks are rows `1024 t … 1024 t + 1023` of their
  tables and the result window's block is entries `1024 t …` of the [4096] vector. The body multiplies the loaded blocks
  entry by entry and adds along the 64 lanes; over the extended reals that lane sum is the finite sum, so entry `r` of
  what point `t` writes back is `∑ k, u (1024 t + r, k) · v (1024 t + r, k)`. The 4 blocks tile the vector.
-/
import proofs.«134864_j73821897883700_1_alg».proof.Proof.FrameKernelIdeal
import proofs.«134864_j73821897883700_1_alg».proof.Proof.Spec
import Idealize.ShloMosaic.Lib.Pipeline.Value
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dot

open Cert.KernelIdeal Cert.KernelIdeal.Gen Cert.KernelIdeal.GenP

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The body's stored block: the lane sum of the entrywise product of the loaded blocks (the shape casts are identities). -/
theorem payload_eq (x0 x1 : Vec Ideal S1024x64 .f32) :
    k4_pay1 x0 x1 = multiReduction .add [1] S1024 (mulf x0 x1) 0x00000000#32 reduces_S1024x64_S1024 (.inl rfl) rfl := by
  unfold k4_pay1
  simp only [shapeCast_self]

/-- Entry `(r, k)` of a block, from the row `r` and the lane `k`. -/
abbrev laneOf (j : S1024.Idx) (k : Fin 64) : S1024x64.Idx := fun a => match a with
  | ⟨0, _⟩ => ⟨(j 0).val, (j 0).isLt⟩
  | ⟨1, _⟩ => ⟨k.val, k.isLt⟩

/-- Over the extended reals the lane sum of a product block at row `j` is the sum over the lanes of the products. -/
theorem lane_sum (x0 x1 : FVec Ideal S1024x64 .f32) (j : S1024.Idx) :
    multiReduction .add [1] S1024 (mulf x0 x1) 0x00000000#32 reduces_S1024x64_S1024 (.inl rfl) rfl j
      = ∑ k : Fin 64, x0 (laneOf j k) * x1 (laneOf j k) := by
  refine (Ideal.multiReduction_add_single (mulf x0 x1) 0x00000000#32 reduces_S1024x64_S1024 (.inl rfl) rfl j).trans ?_
  refine Finset.sum_congr rfl fun k _ => ?_
  have e : reduces_S1024x64_S1024.lift j k = laneOf j k :=
    funext fun a => Fin.ext (by match a with | ⟨0, _⟩ => rfl | ⟨1, _⟩ => rfl)
  show x0 (reduces_S1024x64_S1024.lift j k) * x1 (reduces_S1024x64_S1024.lift j k) = _
  rw [e]

/-- The three windows step together: block index `(t, 0)` for the tables and `t` for the vector at point `t`. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = t.val :=
  (by decide +kernel : ∀ t : Fin grid4.N, _)

/-- The two operand tables as the call finds them, and their blocks at point `t`, at their literal types. -/
abbrev uTab (c : Dev nD) : S4096x64.Idx → EReal := V c main_v44
abbrev vTab (c : Dev nD) : S4096x64.Idx → EReal := V c main_v51
abbrev uBlk (c : Dev nD) (t : Fin cfg4.N) : FVec Ideal S1024x64 .f32 := iblk4 V c 0 t
abbrev vBlk (c : Dev nD) (t : Fin cfg4.N) : FVec Ideal S1024x64 .f32 := iblk4 V c 1 t

/-- What point `t` writes back is block `t` of `rowDots` of the operand tables as the call finds them. -/
theorem flushed_eq (c : Dev nD) (t : Fin cfg4.N) :
    (dat4 V c).flushed 2 t = ((cfg4.win 2).blk t).view.read (Elt Ideal)
      (Cert.Spec.rowDots (V c main_v44) (V c main_v51)) := by
  show (cfg4.win 2).cut (grid4.coords t) ((dat4 V c).after 2 t) = _
  rw [after4_2]
  unfold out4_2
  rw [View.canon_unit_zero zero_offsets1]
  simp only [View.ld_unit_zero (S := S1024x64) zero_offsets2]
  rw [payload_eq]
  obtain ⟨a0, a1, b0, b1, e0⟩ := index_facts t
  funext j
  show multiReduction .add [1] S1024 (mulf (uBlk V c t) (vBlk V c t)) 0x00000000#32 reduces_S1024x64_S1024 (.inl rfl) rfl j
    = ∑ k : Fin 64, uTab V c (Cert.Spec.entryOf (((cfg4.win 2).blk t).view.emb j) k) * vTab V c (Cert.Spec.entryOf (((cfg4.win 2).blk t).view.emb j) k)
  refine (lane_sum (uBlk V c t) (vBlk V c t) j).trans ?_
  refine Finset.sum_congr rfl fun k _ => ?_
  show uTab V c (((cfg4.win 0).blk t).view.emb (laneOf j k)) * vTab V c (((cfg4.win 1).blk t).view.emb (laneOf j k))
    = uTab V c (Cert.Spec.entryOf (((cfg4.win 2).blk t).view.emb j) k) * vTab V c (Cert.Spec.entryOf (((cfg4.win 2).blk t).view.emb j) k)
  have h0 : ((cfg4.win 0).blk t).view.emb (laneOf j k) = Cert.Spec.entryOf (((cfg4.win 2).blk t).view.emb j) k := by
    funext a; apply Fin.ext
    match a with
    | ⟨0, _⟩ => show win4_0.index t (0 : Fin 2) * 1024 + 1 * (j 0).val = win4_2.index t (0 : Fin 1) * 1024 + 1 * (j 0).val; omega
    | ⟨1, _⟩ => show win4_0.index t (1 : Fin 2) * 64 + 1 * k.val = k.val; omega
  have h1 : ((cfg4.win 1).blk t).view.emb (laneOf j k) = Cert.Spec.entryOf (((cfg4.win 2).blk t).view.emb j) k := by
    funext a; apply Fin.ext
    match a with
    | ⟨0, _⟩ => show win4_1.index t (0 : Fin 2) * 1024 + 1 * (j 0).val = win4_2.index t (0 : Fin 1) * 1024 + 1 * (j 0).val; omega
    | ⟨1, _⟩ => show win4_1.index t (1 : Fin 2) * 64 + 1 * k.val = k.val; omega
  rw [h0, h1]

/-- Entry `i` of the result vector lies in point `t`'s block iff it is among that block's 1024 entries. -/
theorem mem_block (t : Fin cfg4.N) (i : S4096.Idx) :
    i ∈ ((cfg4.win 2).blk t).view.set ↔ ∀ a : Fin 1, win4_2.index t a * S1024.size a ≤ (i a).val ∧ (i a).val < win4_2.index t a * S1024.size a + S1024.size a := by
  show i ∈ ((View.whole main_v52).slice (win4_2.rect t)).set ↔ _
  rw [View.set_slice_whole, Rect.mem_set_unit]
  exact Iff.rfl

/-- The 4 blocks tile the vector: entry `r` is in the block of point `r / 1024`. -/
theorem covered (i : S4096.Idx) : ∃ t : Fin cfg4.N, (cfg4.win 2).flush t = true ∧ i ∈ ((cfg4.win 2).blk t).view.set := by
  have hi0 : (i 0).val < 4096 := (i 0).isLt
  have hN : cfg4.N = 4 := rfl
  let t : Fin cfg4.N := ⟨(i 0).val / 1024, by rw [hN]; omega⟩
  obtain ⟨_, _, _, _, e0⟩ := index_facts t
  have ht : t.val = (i 0).val / 1024 := rfl
  refine ⟨t, flush4_2 t, ?_⟩
  rw [mem_block]
  intro a
  match a with
  | ⟨0, _⟩ => show win4_2.index t (0 : Fin 1) * 1024 ≤ (i 0).val ∧ (i 0).val < win4_2.index t (0 : Fin 1) * 1024 + 1024; omega

/-- THE RESULT VECTOR after the call: `rowDots` of the two gathered tables as the call finds them. -/
theorem final (c : Dev nD) : (dat4 V c).arrAt 2 cfg4.N = Cert.Spec.rowDots (V c main_v44) (V c main_v51) :=
  (dat4 V c).arrAt_eq_of_cover 2 _ (fun t _ => flushed_eq V c t) covered

end Cert.KernelIdeal.Dot

end
-- ==== Proof.RefStages.lean ====
/-
  The reference's three arithmetic stages are the specification's three array functions.

  * Its per-layer product `vals[:, None] * emb[src]` is `scaleRows` of the weight column and the gathered table: a
    [4000000, 1] column broadcast along the lanes reads, at `(e, d)`, the column's entry `(e, 0)`.
  * Its mean over the four layer tables, `(((l0 + l1) + l2) + l3) / 4`, is `quarterSum`: over the extended reals the
    quotient by the real 4 is the product with the real 1/4 on EVERY extended real (`Ideal.div_coe`), and the word
    `0x3E800000` denotes exactly 1/4, the word `0x40800000` exactly 4.
  * Its `jnp.sum(u * i, axis=1)` is `rowDots`: over the extended reals the host's sum from the initial value `0` is the
    finite sum over the 64 columns.
-/
import proofs.«134864_j73821897883700_1_alg».proof.Proof.Gen.ReferenceIdeal.Read
import proofs.«134864_j73821897883700_1_alg».proof.Proof.Spec
import Idealize.ShloMosaic.Lib.Pipeline.Value
import Idealize.ShloMosaic.PureOps.Ideal.Laws

noncomputable section

namespace Cert.RefStages

open Idealize.ShloMosaic Cert.ReferenceIdeal Cert.ReferenceIdeal.Gen Cert.ReferenceIdeal.Read Cert.Spec

/-! ## The two float words -/

/-- The word `0x40800000` denotes the real 4. -/
theorem ofBits_four : Ideal.ofBits .f32 0x40800000#32 = ((4 : ℝ) : EReal) := by
  simp [Ideal.ofBits, Ideal.ieee, -EReal.coe_mul]; norm_num

/-- The word `0x3E800000` denotes the real 1/4. -/
theorem ofBits_quarter : Ideal.ofBits .f32 0x3E800000#32 = ((1 / 4 : ℝ) : EReal) := by
  simp [Ideal.ofBits, Ideal.ieee, -EReal.coe_mul]; norm_num

section AnyInstance

variable {F : FTy → Type} [FloatOps F]

/-- A weight column broadcast along the lanes and multiplied into a table is `scaleRows`. -/
theorem scale_stage (w : (⟨S4000000x1, .f32⟩ : BufTy).Contents (Elt F)) (g : (⟨S4000000x64, .f32⟩ : BufTy).Contents (Elt F)) :
    mulf (broadcastInDim S4000000x64 ![0, 1] bcast_S4000000x1_S4000000x64_0_1 w) g = scaleRows w g := by
  funext i
  show FloatOps.mulf (broadcastInDim S4000000x64 ![0, 1] bcast_S4000000x1_S4000000x64_0_1 w i) (g i) = FloatOps.mulf (w (weightOf i)) (g i)
  rw [broadcastInDim_apply _ bcast_S4000000x1_S4000000x64_0_1 w i (weightOf i) (fun a => match a with
    | ⟨0, _⟩ => by show (i 0).val = if (4000000 : Nat) = 1 then 0 else (i 0).val; rw [if_neg (by decide)]
    | ⟨1, _⟩ => by show 0 = if (1 : Nat) = 1 then 0 else (i 1).val; rw [if_pos rfl])]

/-- The first layer's messages. -/
theorem msgs1_eq (x0 : (⟨S100000x64, .f32⟩ : BufTy).Contents (Elt F)) (x1 : (⟨S50000x64, .f32⟩ : BufTy).Contents (Elt F)) (x2 : (⟨S4000000, .f32⟩ : BufTy).Contents (Elt F)) (x3 : (⟨S4000000, .i32⟩ : BufTy).Contents (Elt F)) :
    val_main_v10 (F := F) x0 x1 x2 x3 = scaleRows (val_main_v1 (F := F) x2) (val_main_v8 (F := F) x0 x1 x3) := by
  unfold val_main_v10 val_main_v9
  exact scale_stage _ _

/-- The second layer's messages (the reference broadcasts the weights anew each layer: the same column). -/
theorem msgs2_eq (x0 : (⟨S100000x64, .f32⟩ : BufTy).Contents (Elt F)) (x1 : (⟨S50000x64, .f32⟩ : BufTy).Contents (Elt F)) (x2 : (⟨S4000000, .f32⟩ : BufTy).Contents (Elt F)) (x3 x4 : (⟨S4000000, .i32⟩ : BufTy).Contents (Elt F)) :
    val_main_v24 (F := F) x0 x1 x2 x3 x4 = scaleRows (val_main_v1 (F := F) x2) (val_main_v22 (F := F) x0 x1 x2 x3 x4) := by
  unfold val_main_v24 val_main_v23 val_main_v15
  exact scale_stage (val_main_v1 (F := F) x2) _

/-- The third layer's messages. -/
theorem msgs3_eq (x0 : (⟨S100000x64, .f32⟩ : BufTy).Contents (Elt F)) (x1 : (⟨S50000x64, .f32⟩ : BufTy).Contents (Elt F)) (x2 : (⟨S4000000, .f32⟩ : BufTy).Contents (Elt F)) (x3 x4 : (⟨S4000000, .i32⟩ : BufTy).Contents (Elt F)) :
    val_main_v38 (F := F) x0 x1 x2 x3 x4 = scaleRows (val_main_v1 (F := F) x2) (val_main_v36 (F := F) x0 x1 x2 x3 x4) := by
  unfold val_main_v38 val_main_v37 val_main_v29
  exact scale_stage (val_main_v1 (F := F) x2) _

end AnyInstance

/-! ## Over the extended reals -/

/-- The four tables added left to right and divided by 4 are `quarterSum`. -/
theorem mean_stage (l0 l1 l2 l3 : FVec Ideal S150000x64 .f32) :
    Host.divf (F := Ideal) (addf (addf (addf l0 l1) l2) l3) (val_main_v43 (F := Ideal)) = quarterSum (F := Ideal) l0 l1 l2 l3 := by
  funext i
  show Ideal.div (((l0 i + l1 i) + l2 i) + l3 i) (val_main_v43 (F := Ideal) i) = (((l0 i + l1 i) + l2 i) + l3 i) * Ideal.ofBits .f32 0x3E800000#32
  rw [val_main_v43_apply, val_main_cst_7_apply]
  show Ideal.div _ (Ideal.ofBits .f32 0x40800000#32) = _
  rw [ofBits_four, ofBits_quarter, Ideal.div_coe (by norm_num : (4 : ℝ) ≠ 0)]

/-- The reference's mean-pooled table. -/
theorem pooled_eq (x0 : (⟨S100000x64, .f32⟩ : BufTy).Contents (Elt Ideal)) (x1 : (⟨S50000x64, .f32⟩ : BufTy).Contents (Elt Ideal)) (x2 : (⟨S4000000, .f32⟩ : BufTy).Contents (Elt Ideal)) (x3 x4 : (⟨S4000000, .i32⟩ : BufTy).Contents (Elt Ideal)) :
    val_main_v44 (F := Ideal) x0 x1 x2 x3 x4 = quarterSum (F := Ideal) (val_main_v0 (F := Ideal) x0 x1) (val_main_v13 (F := Ideal) x0 x1 x2 x3 x4) (val_main_v27 (F := Ideal) x0 x1 x2 x3 x4) (val_main_v41 (F := Ideal) x0 x1 x2 x3 x4) := by
  unfold val_main_v44 val_main_v42 val_main_v28 val_main_v14
  exact mean_stage _ _ _ _

/-- The reference's result: row by row the sum of the products of the two gathered tables. -/
theorem result_eq (x0 : (⟨S100000x64, .f32⟩ : BufTy).Contents (Elt Ideal)) (x1 : (⟨S50000x64, .f32⟩ : BufTy).Contents (Elt Ideal)) (x2 : (⟨S4000000, .f32⟩ : BufTy).Contents (Elt Ideal)) (x3 x4 : (⟨S4000000, .i32⟩ : BufTy).Contents (Elt Ideal)) (x5 x6 : (⟨S4096, .i32⟩ : BufTy).Contents (Elt Ideal)) :
    val_main_v62 (F := Ideal) x0 x1 x2 x3 x4 x5 x6 = rowDots (val_main_v53 (F := Ideal) x0 x1 x2 x3 x4 x5) (val_main_v60 (F := Ideal) x0 x1 x2 x3 x4 x6) := by
  funext p
  rw [val_main_v62_apply, val_main_cst_12_apply]
  show Ideal.ofBits .f32 0x00000000#32 + ∑ k : Fin 64, (val_main_v53 (F := Ideal) x0 x1 x2 x3 x4 x5 (idx_main_v62 p k)) * (val_main_v60 (F := Ideal) x0 x1 x2 x3 x4 x6 (idx_main_v62 p k)) = ∑ k : Fin 64, _ * _
  rw [Ideal.ofBits_zero_f32, zero_add]
  rfl

end Cert.RefStages

end
-- ==== Proof.Fold.lean ====
/-
  The kernel program's result, read through its ten boundaries.

  @main of the kernel program is five host stretches, each followed by a pallas_call. The generated frame names the
  buffer contents at every boundary as a fold from the launch memory (`W1` … `W10`): a host stretch's operations
  applied in order, a call's arrays at what its write-backs leave. This module reads that fold at the buffers the
  later items use, one boundary at a time, and finds at each of them the same stage of the reference's own
  computation (its `val_main_vN`, as functions of the seven arguments):

  * the host stretches are, operation for operation, the reference's own (the concatenation of the two embedding
    tables, the negative-index wrap and the row gather, the scatter-add into a zero table, the two slices and the two
    batch gathers), so a buffer after a stretch is the reference's stage by unfolding both;
  * a scale call's result is `scaleRows` of the weight column and the gathered table, which is the reference's
    per-layer product; the mean-pool call's result is `quarterSum` of the four layer tables, which over the extended
    reals is the reference's sum divided by 4; the dot call's result is `rowDots`, which over the extended reals is
    the reference's row sum of the products;
  * a buffer that an item neither writes nor owns keeps its contents across it; an operand table of a call keeps its
    contents across that call.
-/
import proofs.«134864_j73821897883700_1_alg».proof.Proof.FrameKernelIdeal
import proofs.«134864_j73821897883700_1_alg».proof.Proof.ScaleValue0
import proofs.«134864_j73821897883700_1_alg».proof.Proof.ScaleValue1
import proofs.«134864_j73821897883700_1_alg».proof.Proof.ScaleValue2
import proofs.«134864_j73821897883700_1_alg».proof.Proof.PoolValue
import proofs.«134864_j73821897883700_1_alg».proof.Proof.DotValue
import proofs.«134864_j73821897883700_1_alg».proof.Proof.RefStages
import Idealize.ShloMosaic.Lib.StableHlo.Run

set_option maxRecDepth 16384

noncomputable section

open Idealize.ShloMosaic Idealize.ShloMosaic.TcCoe Idealize.SL.Sem

namespace Cert.KernelIdeal.Fold

open Cert.KernelIdeal Cert.KernelIdeal.Gen Cert.KernelIdeal.GenP Cert.ReferenceIdeal.Read

variable {F : FTy → Type} [FloatOps F]
variable (m : (ℓ : Loc nD τ sig) → Buf (Elt F) ℓ) (ρ : Dev nD → PrngReg)

/-- The seven argument arrays as launched. -/
abbrev a0 (c : Dev nD) : S100000x64.Idx → Elt F .f32 := m ((c : Thread nD τ).loc main_arg0)
abbrev a1 (c : Dev nD) : S50000x64.Idx → Elt F .f32 := m ((c : Thread nD τ).loc main_arg1)
abbrev a2 (c : Dev nD) : S4000000.Idx → Elt F .f32 := m ((c : Thread nD τ).loc main_arg2)
abbrev a3 (c : Dev nD) : S4000000.Idx → Elt F .i32 := m ((c : Thread nD τ).loc main_arg3)
abbrev a4 (c : Dev nD) : S4000000.Idx → Elt F .i32 := m ((c : Thread nD τ).loc main_arg4)
abbrev a5 (c : Dev nD) : S4096.Idx → Elt F .i32 := m ((c : Thread nD τ).loc main_arg5)
abbrev a6 (c : Dev nD) : S4096.Idx → Elt F .i32 := m ((c : Thread nD τ).loc main_arg6)

/-- Four tables equal one by one have equal `quarterSum`s. -/
theorem quarterSum_congr {l0 l0' l1 l1' l2 l2' l3 l3' : Cert.Spec.NodeRows.Idx → Elt F .f32}
    (h0 : l0 = l0') (h1 : l1 = l1') (h2 : l2 = l2') (h3 : l3 = l3') :
    Cert.Spec.quarterSum l0 l1 l2 l3 = Cert.Spec.quarterSum l0' l1' l2' l3' := by rw [h0, h1, h2, h3]

/-! ## 1: after the first host stretch (the concatenated table, the weight column, the first gather) -/

theorem at1_v0 (c : Dev nD) : W1 m ρ c (Proc.devRef .tc main_v0) = val_main_v0 (F := F) (a0 m c) (a1 m c) := by
  show StableHlo.after hostOps0 (W0 m ρ c) _ = _
  after_results
  rfl
theorem at1_v1 (c : Dev nD) : W1 m ρ c (Proc.devRef .tc main_v1) = val_main_v1 (F := F) (a2 m c) := by
  show StableHlo.after hostOps0 (W0 m ρ c) _ = _
  after_results
  rfl
theorem at1_v8 (c : Dev nD) : W1 m ρ c (Proc.devRef .tc main_v8) = val_main_v8 (F := F) (a0 m c) (a1 m c) (a3 m c) := by
  show StableHlo.after hostOps0 (W0 m ρ c) _ = _
  after_results
  rfl
theorem at1_args (c : Dev nD) : W1 m ρ c (Proc.devRef .tc main_arg3) = a3 m c ∧ W1 m ρ c (Proc.devRef .tc main_arg4) = a4 m c
    ∧ W1 m ρ c (Proc.devRef .tc main_arg5) = a5 m c ∧ W1 m ρ c (Proc.devRef .tc main_arg6) = a6 m c := by
  refine ⟨?_, ?_, ?_, ?_⟩ <;>
  · show StableHlo.after hostOps0 (W0 m ρ c) _ = _
    after_results

/-! ## 2: after the first scale call (the first layer's messages) -/

theorem at2_v9 (c : Dev nD) : W2 m ρ c (Proc.devRef .tc main_v9) = val_main_v10 (F := F) (a0 m c) (a1 m c) (a2 m c) (a3 m c) :=
  (W2_arr m ρ c 2).trans ((Cert.KernelIdeal.Scale0.final (V1 m ρ) c).trans
    ((congrArg₂ Cert.Spec.scaleRows (at1_v1 m ρ c) (at1_v8 m ρ c)).trans (Cert.RefStages.msgs1_eq _ _ _ _).symm))
theorem at2_v0 (c : Dev nD) : W2 m ρ c (Proc.devRef .tc main_v0) = val_main_v0 (F := F) (a0 m c) (a1 m c) :=
  (W2_of_ne m ρ c main_v0 (by decide)).trans (at1_v0 m ρ c)
theorem at2_v1 (c : Dev nD) : W2 m ρ c (Proc.devRef .tc main_v1) = val_main_v1 (F := F) (a2 m c) :=
  (W2_arr m ρ c 0).trans (((dat0 (V1 m ρ) c).arrAt_in 0 rfl cfg0.N).trans
    ((A_eq0 (V1 m ρ) c 0).trans (at1_v1 m ρ c)))
theorem at2_args (c : Dev nD) : W2 m ρ c (Proc.devRef .tc main_arg3) = a3 m c ∧ W2 m ρ c (Proc.devRef .tc main_arg4) = a4 m c
    ∧ W2 m ρ c (Proc.devRef .tc main_arg5) = a5 m c ∧ W2 m ρ c (Proc.devRef .tc main_arg6) = a6 m c :=
  ⟨(W2_of_ne m ρ c main_arg3 (by decide)).trans (at1_args m ρ c).1,
   (W2_of_ne m ρ c main_arg4 (by decide)).trans (at1_args m ρ c).2.1,
   (W2_of_ne m ρ c main_arg5 (by decide)).trans (at1_args m ρ c).2.2.1,
   (W2_of_ne m ρ c main_arg6 (by decide)).trans (at1_args m ρ c).2.2.2⟩

/-! ## 3: after the second host stretch (the first propagated table, gathered again) -/

theorem at3_v12 (c : Dev nD) : W3 m ρ c (Proc.devRef .tc main_v12) = val_main_v13 (F := F) (a0 m c) (a1 m c) (a2 m c) (a3 m c) (a4 m c) := by
  show StableHlo.after hostOps1 (W2 m ρ c) _ = _
  after_results
  rw [at2_v9 m ρ c, (at2_args m ρ c).2.1]
  rfl
theorem at3_v19 (c : Dev nD) : W3 m ρ c (Proc.devRef .tc main_v19) = val_main_v22 (F := F) (a0 m c) (a1 m c) (a2 m c) (a3 m c) (a4 m c) := by
  show StableHlo.after hostOps1 (W2 m ρ c) _ = _
  after_results
  rw [at2_v9 m ρ c, (at2_args m ρ c).1, (at2_args m ρ c).2.1]
  rfl
theorem at3_v0 (c : Dev nD) : W3 m ρ c (Proc.devRef .tc main_v0) = val_main_v0 (F := F) (a0 m c) (a1 m c) := by
  show StableHlo.after hostOps1 (W2 m ρ c) _ = _
  after_results
  exact at2_v0 m ρ c
theorem at3_v1 (c : Dev nD) : W3 m ρ c (Proc.devRef .tc main_v1) = val_main_v1 (F := F) (a2 m c) := by
  show StableHlo.after hostOps1 (W2 m ρ c) _ = _
  after_results
  exact at2_v1 m ρ c
theorem at3_args (c : Dev nD) : W3 m ρ c (Proc.devRef .tc main_arg3) = a3 m c ∧ W3 m ρ c (Proc.devRef .tc main_arg4) = a4 m c
    ∧ W3 m ρ c (Proc.devRef .tc main_arg5) = a5 m c ∧ W3 m ρ c (Proc.devRef .tc main_arg6) = a6 m c := by
  refine ⟨?_, ?_, ?_, ?_⟩
  · show StableHlo.after hostOps1 (W2 m ρ c) _ = _
    after_results
    exact (at2_args m ρ c).1
  · show StableHlo.after hostOps1 (W2 m ρ c) _ = _
    after_results
    exact (at2_args m ρ c).2.1
  · show StableHlo.after hostOps1 (W2 m ρ c) _ = _
    after_results
    exact (at2_args m ρ c).2.2.1
  · show StableHlo.after hostOps1 (W2 m ρ c) _ = _
    after_results
    exact (at2_args m ρ c).2.2.2

/-! ## 4: after the second scale call -/

theorem at4_v20 (c : Dev nD) : W4 m ρ c (Proc.devRef .tc main_v20) = val_main_v24 (F := F) (a0 m c) (a1 m c) (a2 m c) (a3 m c) (a4 m c) :=
  (W4_arr m ρ c 2).trans ((Cert.KernelIdeal.Scale1.final (V3 m ρ) c).trans
    ((congrArg₂ Cert.Spec.scaleRows (at3_v1 m ρ c) (at3_v19 m ρ c)).trans (Cert.RefStages.msgs2_eq _ _ _ _ _).symm))
theorem at4_v12 (c : Dev nD) : W4 m ρ c (Proc.devRef .tc main_v12) = val_main_v13 (F := F) (a0 m c) (a1 m c) (a2 m c) (a3 m c) (a4 m c) :=
  (W4_of_ne m ρ c main_v12 (by decide)).trans (at3_v12 m ρ c)
theorem at4_v0 (c : Dev nD) : W4 m ρ c (Proc.devRef .tc main_v0) = val_main_v0 (F := F) (a0 m c) (a1 m c) :=
  (W4_of_ne m ρ c main_v0 (by decide)).trans (at3_v0 m ρ c)
theorem at4_v1 (c : Dev nD) : W4 m ρ c (Proc.devRef .tc main_v1) = val_main_v1 (F := F) (a2 m c) :=
  (W4_arr m ρ c 0).trans (((dat1 (V3 m ρ) c).arrAt_in 0 rfl cfg1.N).trans
    ((A_eq1 (V3 m ρ) c 0).trans (at3_v1 m ρ c)))
theorem at4_args (c : Dev nD) : W4 m ρ c (Proc.devRef .tc main_arg3) = a3 m c ∧ W4 m ρ c (Proc.devRef .tc main_arg4) = a4 m c
    ∧ W4 m ρ c (Proc.devRef .tc main_arg5) = a5 m c ∧ W4 m ρ c (Proc.devRef .tc main_arg6) = a6 m c :=
  ⟨(W4_of_ne m ρ c main_arg3 (by decide)).trans (at3_args m ρ c).1,
   (W4_of_ne m ρ c main_arg4 (by decide)).trans (at3_args m ρ c).2.1,
   (W4_of_ne m ρ c main_arg5 (by decide)).trans (at3_args m ρ c).2.2.1,
   (W4_of_ne m ρ c main_arg6 (by decide)).trans (at3_args m ρ c).2.2.2⟩

/-! ## 5: after the third host stretch -/

theorem at5_v23 (c : Dev nD) : W5 m ρ c (Proc.devRef .tc main_v23) = val_main_v27 (F := F) (a0 m c) (a1 m c) (a2 m c) (a3 m c) (a4 m c) := by
  show StableHlo.after hostOps2 (W4 m ρ c) _ = _
  after_results
  rw [at4_v20 m ρ c, (at4_args m ρ c).2.1]
  rfl
theorem at5_v30 (c : Dev nD) : W5 m ρ c (Proc.devRef .tc main_v30) = val_main_v36 (F := F) (a0 m c) (a1 m c) (a2 m c) (a3 m c) (a4 m c) := by
  show StableHlo.after hostOps2 (W4 m ρ c) _ = _
  after_results
  rw [at4_v20 m ρ c, (at4_args m ρ c).1, (at4_args m ρ c).2.1]
  rfl
theorem at5_v12 (c : Dev nD) : W5 m ρ c (Proc.devRef .tc main_v12) = val_main_v13 (F := F) (a0 m c) (a1 m c) (a2 m c) (a3 m c) (a4 m c) := by
  show StableHlo.after hostOps2 (W4 m ρ c) _ = _
  after_results
  exact at4_v12 m ρ c
theorem at5_v0 (c : Dev nD) : W5 m ρ c (Proc.devRef .tc main_v0) = val_main_v0 (F := F) (a0 m c) (a1 m c) := by
  show StableHlo.after hostOps2 (W4 m ρ c) _ = _
  after_results
  exact at4_v0 m ρ c
theorem at5_v1 (c : Dev nD) : W5 m ρ c (Proc.devRef .tc main_v1) = val_main_v1 (F := F) (a2 m c) := by
  show StableHlo.after hostOps2 (W4 m ρ c) _ = _
  after_results
  exact at4_v1 m ρ c
theorem at5_args (c : Dev nD) : W5 m ρ c (Proc.devRef .tc main_arg3) = a3 m c ∧ W5 m ρ c (Proc.devRef .tc main_arg4) = a4 m c
    ∧ W5 m ρ c (Proc.devRef .tc main_arg5) = a5 m c ∧ W5 m ρ c (Proc.devRef .tc main_arg6) = a6 m c := by
  refine ⟨?_, ?_, ?_, ?_⟩
  · show StableHlo.after hostOps2 (W4 m ρ c) _ = _
    after_results
    exact (at4_args m ρ c).1
  · show StableHlo.after hostOps2 (W4 m ρ c) _ = _
    after_results
    exact (at4_args m ρ c).2.1
  · show StableHlo.after hostOps2 (W4 m ρ c) _ = _
    after_results
    exact (at4_args m ρ c).2.2.1
  · show StableHlo.after hostOps2 (W4 m ρ c) _ = _
    after_results
    exact (at4_args m ρ c).2.2.2

/-! ## 6: after the third scale call -/

theorem at6_v31 (c : Dev nD) : W6 m ρ c (Proc.devRef .tc main_v31) = val_main_v38 (F := F) (a0 m c) (a1 m c) (a2 m c) (a3 m c) (a4 m c) :=
  (W6_arr m ρ c 2).trans ((Cert.KernelIdeal.Scale2.final (V5 m ρ) c).trans
    ((congrArg₂ Cert.Spec.scaleRows (at5_v1 m ρ c) (at5_v30 m ρ c)).trans (Cert.RefStages.msgs3_eq _ _ _ _ _).symm))
theorem at6_v23 (c : Dev nD) : W6 m ρ c (Proc.devRef .tc main_v23) = val_main_v27 (F := F) (a0 m c) (a1 m c) (a2 m c) (a3 m c) (a4 m c) :=
  (W6_of_ne m ρ c main_v23 (by decide)).trans (at5_v23 m ρ c)
theorem at6_v12 (c : Dev nD) : W6 m ρ c (Proc.devRef .tc main_v12) = val_main_v13 (F := F) (a0 m c) (a1 m c) (a2 m c) (a3 m c) (a4 m c) :=
  (W6_of_ne m ρ c main_v12 (by decide)).trans (at5_v12 m ρ c)
theorem at6_v0 (c : Dev nD) : W6 m ρ c (Proc.devRef .tc main_v0) = val_main_v0 (F := F) (a0 m c) (a1 m c) :=
  (W6_of_ne m ρ c main_v0 (by decide)).trans (at5_v0 m ρ c)
theorem at6_args (c : Dev nD) : W6 m ρ c (Proc.devRef .tc main_arg3) = a3 m c ∧ W6 m ρ c (Proc.devRef .tc main_arg4) = a4 m c
    ∧ W6 m ρ c (Proc.devRef .tc main_arg5) = a5 m c ∧ W6 m ρ c (Proc.devRef .tc main_arg6) = a6 m c :=
  ⟨(W6_of_ne m ρ c main_arg3 (by decide)).trans (at5_args m ρ c).1,
   (W6_of_ne m ρ c main_arg4 (by decide)).trans (at5_args m ρ c).2.1,
   (W6_of_ne m ρ c main_arg5 (by decide)).trans (at5_args m ρ c).2.2.1,
   (W6_of_ne m ρ c main_arg6 (by decide)).trans (at5_args m ρ c).2.2.2⟩

/-! ## 7: after the fourth host stretch (the third propagated table) -/

theorem at7_v34 (c : Dev nD) : W7 m ρ c (Proc.devRef .tc main_v34) = val_main_v41 (F := F) (a0 m c) (a1 m c) (a2 m c) (a3 m c) (a4 m c) := by
  show StableHlo.after hostOps3 (W6 m ρ c) _ = _
  after_results
  rw [at6_v31 m ρ c, (at6_args m ρ c).2.1]
  rfl
theorem at7_v23 (c : Dev nD) : W7 m ρ c (Proc.devRef .tc main_v23) = val_main_v27 (F := F) (a0 m c) (a1 m c) (a2 m c) (a3 m c) (a4 m c) := by
  show StableHlo.after hostOps3 (W6 m ρ c) _ = _
  after_results
  exact at6_v23 m ρ c
theorem at7_v12 (c : Dev nD) : W7 m ρ c (Proc.devRef .tc main_v12) = val_main_v13 (F := F) (a0 m c) (a1 m c) (a2 m c) (a3 m c) (a4 m c) := by
  show StableHlo.after hostOps3 (W6 m ρ c) _ = _
  after_results
  exact at6_v12 m ρ c
theorem at7_v0 (c : Dev nD) : W7 m ρ c (Proc.devRef .tc main_v0) = val_main_v0 (F := F) (a0 m c) (a1 m c) := by
  show StableHlo.after hostOps3 (W6 m ρ c) _ = _
  after_results
  exact at6_v0 m ρ c
theorem at7_args (c : Dev nD) : W7 m ρ c (Proc.devRef .tc main_arg3) = a3 m c ∧ W7 m ρ c (Proc.devRef .tc main_arg4) = a4 m c
    ∧ W7 m ρ c (Proc.devRef .tc main_arg5) = a5 m c ∧ W7 m ρ c (Proc.devRef .tc main_arg6) = a6 m c := by
  refine ⟨?_, ?_, ?_, ?_⟩
  · show StableHlo.after hostOps3 (W6 m ρ c) _ = _
    after_results
    exact (at6_args m ρ c).1
  · show StableHlo.after hostOps3 (W6 m ρ c) _ = _
    after_results
    exact (at6_args m ρ c).2.1
  · show StableHlo.after hostOps3 (W6 m ρ c) _ = _
    after_results
    exact (at6_args m ρ c).2.2.1
  · show StableHlo.after hostOps3 (W6 m ρ c) _ = _
    after_results
    exact (at6_args m ρ c).2.2.2

/-! ## 8: after the mean-pool call -/

theorem at8_v35 (c : Dev nD) : W8 m ρ c (Proc.devRef .tc main_v35)
    = Cert.Spec.quarterSum (val_main_v0 (F := F) (a0 m c) (a1 m c)) (val_main_v13 (F := F) (a0 m c) (a1 m c) (a2 m c) (a3 m c) (a4 m c)) (val_main_v27 (F := F) (a0 m c) (a1 m c) (a2 m c) (a3 m c) (a4 m c)) (val_main_v41 (F := F) (a0 m c) (a1 m c) (a2 m c) (a3 m c) (a4 m c)) :=
  (W8_arr m ρ c 4).trans ((Cert.KernelIdeal.Pool.final (V7 m ρ) c).trans
    (quarterSum_congr (at7_v0 m ρ c) (at7_v12 m ρ c) (at7_v23 m ρ c) (at7_v34 m ρ c)))
theorem at8_args (c : Dev nD) : W8 m ρ c (Proc.devRef .tc main_arg3) = a3 m c ∧ W8 m ρ c (Proc.devRef .tc main_arg4) = a4 m c
    ∧ W8 m ρ c (Proc.devRef .tc main_arg5) = a5 m c ∧ W8 m ρ c (Proc.devRef .tc main_arg6) = a6 m c :=
  ⟨(W8_of_ne m ρ c main_arg3 (by decide)).trans (at7_args m ρ c).1,
   (W8_of_ne m ρ c main_arg4 (by decide)).trans (at7_args m ρ c).2.1,
   (W8_of_ne m ρ c main_arg5 (by decide)).trans (at7_args m ρ c).2.2.1,
   (W8_of_ne m ρ c main_arg6 (by decide)).trans (at7_args m ρ c).2.2.2⟩

end Cert.KernelIdeal.Fold

/-! ## Over the extended reals: the pooled table, the two batch gathers, the result -/

namespace Cert.KernelIdeal.FoldIdeal

open Cert.KernelIdeal Cert.KernelIdeal.Gen Cert.KernelIdeal.GenP Cert.ReferenceIdeal.Read Cert.KernelIdeal.Fold

variable (m : (ℓ : Loc nD τ sig) → Buf (Elt Ideal) ℓ) (ρ : Dev nD → PrngReg)

theorem at8_pooled (c : Dev nD) : W8 m ρ c (Proc.devRef .tc main_v35) = val_main_v44 (F := Ideal) (a0 m c) (a1 m c) (a2 m c) (a3 m c) (a4 m c) :=
  (at8_v35 m ρ c).trans (Cert.RefStages.pooled_eq _ _ _ _ _).symm

set_option maxHeartbeats 2000000 in
theorem at9_v44 (c : Dev nD) : W9 m ρ c (Proc.devRef .tc main_v44) = val_main_v53 (F := Ideal) (a0 m c) (a1 m c) (a2 m c) (a3 m c) (a4 m c) (a5 m c) := by
  show StableHlo.after hostOps4 (W8 m ρ c) _ = _
  after_results
  rw [at8_pooled m ρ c, (at8_args m ρ c).2.2.1]
  rfl
set_option maxHeartbeats 2000000 in
theorem at9_v51 (c : Dev nD) : W9 m ρ c (Proc.devRef .tc main_v51) = val_main_v60 (F := Ideal) (a0 m c) (a1 m c) (a2 m c) (a3 m c) (a4 m c) (a6 m c) := by
  show StableHlo.after hostOps4 (W8 m ρ c) _ = _
  after_results
  rw [at8_pooled m ρ c, (at8_args m ρ c).2.2.2]
  rfl

/-- THE KERNEL PROGRAM'S RESULT at the last boundary is the reference's result stage of the seven arguments. -/
theorem result_value (c : Dev nD) : W10 m ρ c (Proc.devRef .tc main_v52) = val_main_v62 (F := Ideal) (a0 m c) (a1 m c) (a2 m c) (a3 m c) (a4 m c) (a5 m c) (a6 m c) :=
  (W10_arr m ρ c 2).trans ((Cert.KernelIdeal.Dot.final (V9 m ρ) c).trans
    ((congrArg₂ Cert.Spec.rowDots (at9_v44 m ρ c) (at9_v51 m ρ c)).trans (Cert.RefStages.result_eq _ _ _ _ _ _ _).symm))

end Cert.KernelIdeal.FoldIdeal

end
-- ==== Proof.lean ====
/-
  LightGCN scoring on a bipartite graph: three rounds of weighted message passing over 4,000,000 edges between
  150,000 nodes with 64-wide embeddings, the mean of the four layer tables, and a dot product per batch pair.

  Both programs concatenate the user and item tables, and three times gather the rows `emb[src]`, multiply row `e` by
  `vals[e]`, and scatter-add the rows into a zero table at `dst`. The kernel program does the multiplication in a
  pallas_call over blocks of 20000 rows (the weight kept as a [4000000, 1] column and broadcast along the lanes); the
  reference broadcasts the column on the host and multiplies the whole tables. The kernel program then adds the four
  layer tables left to right and multiplies by the float 0.25 in a pallas_call over blocks of 5000 rows; the
  reference adds them in the same order and divides by the float 4. Both slice the pooled table into its user and
  item parts and gather the batch rows; the kernel program multiplies the two gathered [4096, 64] tables and adds
  along the lanes in a pallas_call over blocks of 1024 rows, the reference multiplies on the host and sums over
  axis 1.

  Over the extended reals the three pairs agree with no condition on the inputs: a broadcast column read at `(e, d)`
  is the column's entry `(e, 0)` either way; `x / 4 = x · (1/4)` holds on every extended real (`Ideal.div_coe`), the
  word 0x3E800000 being exactly 1/4 and 0x40800000 exactly 4; and a lane sum and a host sum from 0 are the same
  finite sum. Every host operation (gather, scatter-add, slices, the index wrap) is the same operation of the same
  operands in both programs, so it is carried as it stands and never opened. The finiteness precondition is not used.

  The modules: `Spec` states the three array functions; `ScaleValue0/1/2`, `PoolValue`, `DotValue` show that each
  pallas_call's result array is its function of the operand arrays as the call finds them (what a grid point writes
  back is its block of that function, and the blocks tile the array); `RefStages` shows that the reference's three
  arithmetic stages are the same functions; `Fold` reads the kernel program's result through its ten boundaries as
  the reference's result stage of the arguments; `RunResult` is the run with the result buffer named. The frames of
  the two kernel programs are the generated ones; the reference's is its generated run with the result dropped;
  the idealization rewrote nothing, so `preserves` is `True`.
-/
import proofs.«134864_j73821897883700_1_alg».proof.Defs
import proofs.«134864_j73821897883700_1_alg».proof.Proof.Gen.Kernel
import proofs.«134864_j73821897883700_1_alg».proof.Proof.FrameKernel
import proofs.«134864_j73821897883700_1_alg».proof.Proof.Gen.KernelIdeal
import proofs.«134864_j73821897883700_1_alg».proof.Proof.FrameKernelIdeal
import proofs.«134864_j73821897883700_1_alg».proof.Proof.RunResult
import proofs.«134864_j73821897883700_1_alg».proof.Proof.Fold
import proofs.«134864_j73821897883700_1_alg».proof.Proof.Gen.ReferenceIdeal
import proofs.«134864_j73821897883700_1_alg».proof.Proof.Gen.ReferenceIdeal.Run
import proofs.«134864_j73821897883700_1_alg».proof.Proof.Gen.ReferenceIdeal.Read
import proofs.«134864_j73821897883700_1_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.GenP.frame m ρ

/-- So does the idealized kernel program. -/
theorem frame_kernel_ideal : Cert.frame_KernelIdeal := fun m ρ _ => Cert.KernelIdeal.GenP.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the reference's result stage of the (agreeing) arguments. -/
theorem algebraic : Cert.algebraic_KernelIdeal_ReferenceIdeal := by
  intro m ρ m' ρ' _ hagree
  refine ⟨fun c => Cert.ReferenceIdeal.Read.val_main_v62 (F := Ideal)
      (Cert.KernelIdeal.Fold.a0 m c) (Cert.KernelIdeal.Fold.a1 m c) (Cert.KernelIdeal.Fold.a2 m c) (Cert.KernelIdeal.Fold.a3 m c)
      (Cert.KernelIdeal.Fold.a4 m c) (Cert.KernelIdeal.Fold.a5 m c) (Cert.KernelIdeal.Fold.a6 m c), ?_, ?_⟩
  · exact (θ_run Cert.KernelIdeal.defs _ _).mono
      (fun r h c => ⟨(h c).1.trans (Cert.KernelIdeal.FoldIdeal.result_value m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v62_eq]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
